-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S3200000 : Shape := ⟨1, ![3200000]⟩
abbrev S100000x128 : Shape := ⟨2, ![100000, 128]⟩
abbrev S128x64 : Shape := ⟨2, ![128, 64]⟩
abbrev S1x64 : Shape := ⟨2, ![1, 64]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x64 : S_.BroadcastsInDim S128x64 (![] : Fin 0 → Fin S128x64.rank)
  reducesTo_S128x64_S_d0_1 : S128x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  main_v18

def fn {F : FTy → Type} [FloatOps F] (main_arg0 : IVec S2x3200000 32) (main_arg1 : FVec F S3200000 .f32) (main_arg2 : FVec F S100000x128 .f32) (main_arg3 : FVec F S128x64 .f32) (main_arg4 : FVec F S1x64 .f32) : IVec S_ 1 :=
  let main_v0 : FVec F S3200000 .f32 := Host.absf main_arg1
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_v13 main_v16
-- ==== Kernel.lean ====
abbrev S2x3200000 : Shape := ⟨2, ![2, 3200000]⟩
abbrev S3200000 : Shape := ⟨1, ![3200000]⟩
abbrev S100000x128 : Shape := ⟨2, ![100000, 128]⟩
abbrev S128x64 : Shape := ⟨2, ![128, 64]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1x3200000 : Shape := ⟨2, ![1, 3200000]⟩
abbrev S3200000x1 : Shape := ⟨2, ![3200000, 1]⟩
abbrev S_ : Shape := ⟨0, ![]⟩
abbrev S3200000x64 : Shape := ⟨2, ![3200000, 64]⟩
abbrev S16000x64 : Shape := ⟨2, ![16000, 64]⟩
abbrev S16000x1 : Shape := ⟨2, ![16000, 1]⟩

abbrev nBuf : Space → Nat
  | .hbm => 40
  | .vmem => 22
  | .smem => 0
  | _ => 0

abbrev bufTy : (tb : Table) → Fin (tcTables nBuf tb) → BufTy
  | .hbm, ⟨0, _⟩ => ⟨S2x3200000, .i32⟩
  | .hbm, ⟨1, _⟩ => ⟨S3200000, .f32⟩
  | .hbm, ⟨2, _⟩ => ⟨S100000x128, .f32⟩
  | .hbm, ⟨3, _⟩ => ⟨S128x64, .f32⟩
  | .hbm, ⟨4, _⟩ => ⟨S1x64, .f32⟩
  | .hbm, ⟨5, _⟩ => ⟨S100000x64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x64, .f32⟩
  | .hbm, ⟨34, _⟩ => ⟨S3200000x64, .f32⟩
  | .hbm, ⟨35, _⟩ => ⟨S_, .f32⟩
  | .hbm, ⟨36, _⟩ => ⟨S100000x64, .f32⟩
  | .hbm, ⟨37, _⟩ => ⟨S3200000x1, .i32⟩
  | .hbm, ⟨38, _⟩ => ⟨S100000x64, .f32⟩
  | .hbm, ⟨39, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S16000x64, .f32⟩
  | .local _ .vmem, ⟨6, _⟩ => ⟨S16000x64, .f32⟩
  | .local _ .vmem, ⟨7, _⟩ => ⟨S16000x1, .f32⟩
  | .local _ .vmem, ⟨8, _⟩ => ⟨S16000x1, .f32⟩
  | .local _ .vmem, ⟨9, _⟩ => ⟨S16000x64, .f32⟩
  | .local _ .vmem, ⟨10, _⟩ => ⟨S16000x64, .f32⟩
  | .local _ .vmem, ⟨11, _⟩ => ⟨S16000x64, .f32⟩
  | .local _ .vmem, ⟨12, _⟩ => ⟨S16000x64, .f32⟩
  | .local _ .vmem, ⟨13, _⟩ => ⟨S16000x1, .f32⟩
  | .local _ .vmem, ⟨14, _⟩ => ⟨S16000x1, .f32⟩
  | .local _ .vmem, ⟨15, _⟩ => ⟨S16000x64, .f32⟩
  | .local _ .vmem, ⟨16, _⟩ => ⟨S16000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S3200000x1_0 : S3200000.BroadcastsInDim S3200000x1 (![0] : Fin 1 → Fin S3200000x1.rank)
  bcast_S_S3200000 : S_.BroadcastsInDim S3200000 (![] : Fin 0 → Fin S3200000.rank)
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  broadcasts_S16000x1_S16000x64 : S16000x1.Broadcasts S16000x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S3200000x64.size a
  hwx1_0 : ∀ i : grid1.Coords, EltTy.bits .f32 = 32 ∨ (Rect.block (s := S3200000x64) S16000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x1.size a ≤ S3200000x1.size a
  hwx1_1 : ∀ i : grid1.Coords, EltTy.bits .f32 = 32 ∨ (Rect.block (s := S3200000x1) S16000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x64.size a ≤ S3200000x64.size a
  hwx1_2 : ∀ i : grid1.Coords, EltTy.bits .f32 = 32 ∨ (Rect.block (s := S3200000x64) S16000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S3200000x64.size a
  hwx2_0 : ∀ i : grid2.Coords, EltTy.bits .f32 = 32 ∨ (Rect.block (s := S3200000x64) S16000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x1.size a ≤ S3200000x1.size a
  hwx2_1 : ∀ i : grid2.Coords, EltTy.bits .f32 = 32 ∨ (Rect.block (s := S3200000x1) S16000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x64.size a ≤ S3200000x64.size a
  hwx2_2 : ∀ i : grid2.Coords, EltTy.bits .f32 = 32 ∨ (Rect.block (s := S3200000x64) S16000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg2) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S16000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S16000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v23) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S16000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S16000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v27) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2x3200000 : Shape := ⟨2, ![2, 3200000]⟩
abbrev S3200000 : Shape := ⟨1, ![3200000]⟩
abbrev S100000x128 : Shape := ⟨2, ![100000, 128]⟩
abbrev S128x64 : Shape := ⟨2, ![128, 64]⟩
abbrev S1x64 : Shape := ⟨2, ![1, 64]⟩
abbrev S100000x64 : Shape := ⟨2, ![100000, 64]⟩
abbrev S1x3200000 : Shape := ⟨2, ![1, 3200000]⟩
abbrev S3200000x1 : Shape := ⟨2, ![3200000, 1]⟩
abbrev S_ : Shape := ⟨0, ![]⟩
abbrev S3200000x64 : Shape := ⟨2, ![3200000, 64]⟩

abbrev nBuf : Space → Nat
  | .hbm => 44
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S3200000, .f32⟩
  | .hbm, ⟨2, _⟩ => ⟨S100000x128, .f32⟩
  | .hbm, ⟨3, _⟩ => ⟨S128x64, .f32⟩
  | .hbm, ⟨4, _⟩ => ⟨S1x64, .f32⟩
  | .hbm, ⟨5, _⟩ => ⟨S100000x64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S3200000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x64, .f32⟩
  | .hbm, ⟨36, _⟩ => ⟨S3200000x64, .f32⟩
  | .hbm, ⟨37, _⟩ => ⟨S3200000x64, .f32⟩
  | .hbm, ⟨38, _⟩ => ⟨S_, .f32⟩
  | .hbm, ⟨39, _⟩ => ⟨S100000x64, .f32⟩
  | .hbm, ⟨40, _⟩ => ⟨S3200000x1, .i32⟩
  | .hbm, ⟨41, _⟩ => ⟨S100000x64, .f32⟩
  | .hbm, ⟨42, _⟩ => ⟨S100000x64, .f32⟩
  | .hbm, ⟨43, _⟩ => ⟨S100000x64, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.Stage.lean ====
/-
  The mathematics shared by the region modules of this certificate.

  The program is a graph layer: a dense projection `base = features · weight` ([100000,128] × [128,64]), then twice
  `base ← segment_sum(values[:, None] * base[col], row)`, then `base + bias`.  Three of its stages run as tiled kernels
  (the projection in row blocks of 10000, the per-edge scaling in row blocks of 16000, the bias add in row blocks of
  10000); each of them is stated here as ONE whole-array function of its operand arrays, the form the host reference
  computes it in:
  * `projOf A Wt` — entry (r, n) is the sum over k of A (r, k) · Wt (k, n);
  * the scaling — `mulf (broadcast of the [E,1] column of edge values to [E,64]) gathered`;
  * the bias add — `addf x (broadcast of the [1,64] bias row to [100000,64])`.
-/
import proofs.«130126_j13357348290975_1_alg».proof.KernelIdeal
import Idealize.ShloMosaic.PureOps.Ideal

noncomputable section

open Idealize.ShloMosaic

namespace Cert.KernelIdeal.Hand

open Cert.KernelIdeal

/-- Row `i 0` of the left operand at contraction position `k`. -/
abbrev lrow (i : S100000x64.Idx) (k : Fin 128) : S100000x128.Idx := fun a => match a with
  | ⟨0, _⟩ => ⟨(i 0).val, (i 0).isLt⟩
  | ⟨1, _⟩ => ⟨k.val, k.isLt⟩

/-- Column `i 1` of the right operand at contraction position `k`. -/
abbrev rcol (i : S100000x64.Idx) (k : Fin 128) : S128x64.Idx := fun a => match a with
  | ⟨0, _⟩ => ⟨k.val, k.isLt⟩
  | ⟨1, _⟩ => ⟨(i 1).val, (i 1).isLt⟩

/-- The dense projection over the extended reals: entry (r, n) is `∑ k, A (r, k) * Wt (k, n)`. -/
def projOf (A : Vec Ideal S100000x128 .f32) (Wt : Vec Ideal S128x64 .f32) : Vec Ideal S100000x64 .f32 :=
  fun i => ∑ k : Fin 128, A (lrow i k) * Wt (rcol i k)

/-- A [3200000, 1] column broadcasts along its unit axis to [3200000, 64]. -/
theorem bc64 : S3200000x1.BroadcastsInDim S3200000x64 (![0, 1] : Fin 2 → Fin S3200000x64.rank) := by decide

/-- A [1, 64] row broadcasts along its unit axis to [100000, 64]. -/
theorem bcb : S1x64.BroadcastsInDim S100000x64 (![0, 1] : Fin 2 → Fin S100000x64.rank) := by decide

end Cert.KernelIdeal.Hand

end
-- ==== Proof.ScaleRegion.lean ====
/-
  Region 1 of the program: the per-edge scaling `scaled = gathered * values[:, None]`, tiled in 200 row blocks of
  16000 edges.  At grid point `t` the body reads rows 16000·t … 16000·t+15999 of the gathered [3200000,64] array and of
  the [3200000,1] column of edge values, broadcasts the column along the 64 lanes and multiplies; the block it writes
  back is the same rows of the result.  Multiplication of extended reals commutes, so the array the region leaves is
  `(broadcast of the value column) * gathered`, entry by entry: the form the reference computes it in.
-/
import proofs.«130126_j13357348290975_1_alg».proof.Proof.Gen.KernelIdeal.Frame
import proofs.«130126_j13357348290975_1_alg».proof.Proof.Stage
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Hand.Scale1

open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-- The row of the value column that entry `j` of a block is scaled by. -/
abbrev blkRow (j : S16000x64.Idx) : S16000x1.Idx := fun a => match a with
  | ⟨0, _⟩ => ⟨(j 0).val, (j 0).isLt⟩
  | ⟨1, _⟩ => ⟨0, Nat.one_pos⟩

/-- The same for the whole arrays. -/
abbrev arrRow (i : S3200000x64.Idx) : S3200000x1.Idx := fun a => match a with
  | ⟨0, _⟩ => ⟨(i 0).val, (i 0).isLt⟩
  | ⟨1, _⟩ => ⟨0, Nat.one_pos⟩

/-- The gathered array and the value column as the region finds them, at their literal types. -/
abbrev gArr (c : Dev nD) : Vec Ideal S3200000x64 .f32 := V c main_v12
abbrev vCol (c : Dev nD) : Vec Ideal S3200000x1 .f32 := V c main_v5

/-- What the region leaves: the value column broadcast along the lanes, times the gathered array. -/
abbrev scaled (c : Dev nD) : Vec Ideal S3200000x64 .f32 :=
  mulf (F := Ideal) (φ := .f32) (broadcastInDim S3200000x64 ![0, 1] bc64 (vCol V c)) (gArr V c)

/-- The body's payload at an entry: the row's edge value times the gathered entry. -/
theorem pay_apply (x1 : Vec Ideal S16000x1 .f32) (x0 : Vec Ideal S16000x64 .f32) (j : S16000x64.Idx) :
    k1_pay1 (F := Ideal) x1 x0 j = x1 (blkRow j) * x0 j := by
  unfold k1_pay1
  rw [ValueIdx.mulf_apply, shapeCast_self, shapeCast_self, shapeCast_self, mul_comm]
  congr 1
  exact broadcastTo_apply x1 _ j (blkRow j) (fun a => match a with
    | ⟨0, _⟩ => rfl
    | ⟨1, _⟩ => rfl)

/-- The printed index maps over the grid: every window's block index is the point's number on the row axis and 0 on
    the lane axis. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Block `t` of the gathered array is its rows 16000·t … 16000·t+15999. -/
theorem gblk_apply (c : Dev nD) (t : Fin cfg1.N) (x : S16000x64.Idx) (k : S3200000x64.Idx)
    (hk0 : (k 0).val = 16000 * t.val + (x 0).val) (hk1 : (k 1).val = (x 1).val) :
    (iblk1 V c 0 t : Vec Ideal S16000x64 .f32) x = gArr V c k := by
  obtain ⟨e0, e1, -, -, -, -⟩ := idx_facts t
  unfold iblk1
  rw [View.read_apply]
  show V c main_v12 _ = V c main_v12 _
  congr 1
  funext a
  apply Fin.ext
  match a with
  | ⟨0, _⟩ => show win1_0.index t (0 : Fin 2) * 16000 + 1 * (x 0).val = (k 0).val; rw [e0, hk0]; omega
  | ⟨1, _⟩ => show win1_0.index t (1 : Fin 2) * 64 + 1 * (x 1).val = (k 1).val; rw [e1, hk1]; omega

/-- Block `t` of the value column is its rows 16000·t … 16000·t+15999. -/
theorem vblk_apply (c : Dev nD) (t : Fin cfg1.N) (x : S16000x1.Idx) (k : S3200000x1.Idx)
    (hk0 : (k 0).val = 16000 * t.val + (x 0).val) (hk1 : (k 1).val = (x 1).val) :
    (iblk1 V c 1 t : Vec Ideal S16000x1 .f32) x = vCol V c k := by
  obtain ⟨-, -, e0, e1, -, -⟩ := idx_facts t
  unfold iblk1
  rw [View.read_apply]
  show V c main_v5 _ = V c main_v5 _
  congr 1
  funext a
  apply Fin.ext
  match a with
  | ⟨0, _⟩ => show win1_1.index t (0 : Fin 2) * 16000 + 1 * (x 0).val = (k 0).val; rw [e0, hk0]; omega
  | ⟨1, _⟩ => show win1_1.index t (1 : Fin 2) * 1 + 1 * (x 1).val = (k 1).val; rw [e1, hk1]; omega

/-- What point `t` writes back is block `t` of `scaled`. -/
theorem flushed_eq (c : Dev nD) (t : Fin cfg1.N) :
    (dat1 V c).flushed 2 t = ((cfg1.win 2).blk t).view.read (Elt Ideal) (scaled V c) := by
  show (cfg1.win 2).cut (grid1.coords t) ((dat1 V c).after 2 t) = _
  rw [after1_2]
  unfold out1_2
  rw [View.canon_unit_zero hz]
  simp only [View.ld_unit_zero (S := S16000x1) hz, View.ld_unit_zero (S := S16000x64) hz]
  obtain ⟨-, -, -, -, e0, e1⟩ := idx_facts t
  funext j
  show k1_pay1 (iblk1 V c 1 t) (iblk1 V c 0 t) j = scaled V c (((cfg1.win 2).blk t).view.emb j)
  have hi0 : ((((cfg1.win 2).blk t).view.emb j) 0).val = 16000 * t.val + (j 0).val := by
    show win1_2.index t (0 : Fin 2) * 16000 + 1 * (j 0).val = _; rw [e0]; omega
  have hi1 : ((((cfg1.win 2).blk t).view.emb j) 1).val = (j 1).val := by
    show win1_2.index t (1 : Fin 2) * 64 + 1 * (j 1).val = _; rw [e1]; omega
  generalize ((cfg1.win 2).blk t).view.emb j = i at hi0 hi1
  refine (pay_apply (iblk1 V c 1 t) (iblk1 V c 0 t) j).trans ?_
  rw [gblk_apply V c t j i hi0 hi1, vblk_apply V c t (blkRow j) (arrRow i) hi0 rfl]
  show _ = broadcastInDim S3200000x64 ![0, 1] bc64 (vCol V c) i * gArr V c i
  congr 1
  exact (broadcastInDim_apply ![0, 1] bc64 (vCol V c) i (arrRow i) (fun a => match a with
    | ⟨0, _⟩ => rfl
    | ⟨1, _⟩ => rfl)).symm

/-- An entry lies in point `t`'s block iff its row is among the block's 16000 rows. -/
theorem mem_blk (t : Fin cfg1.N) (i : S3200000x64.Idx) :
    i ∈ ((cfg1.win 2).blk t).view.set ↔ ∀ a : Fin 2, win1_2.index t a * S16000x64.size a ≤ (i a).val ∧ (i a).val < win1_2.index t a * S16000x64.size a + S16000x64.size a := by
  show i ∈ ((View.whole main_v13).slice (win1_2.rect t)).set ↔ _
  rw [View.set_slice_whole, Rect.mem_set_unit]
  exact Iff.rfl

/-- Row `r` is written back by point `r / 16000`: the 200 blocks cover the array. -/
theorem cover (i : S3200000x64.Idx) :
    ∃ t : Fin cfg1.N, (cfg1.win 2).flush t = true ∧ i ∈ ((cfg1.win 2).blk t).view.set := by
  have h0 : (i 0).val < 3200000 := (i 0).isLt
  have h1 : (i 1).val < 64 := (i 1).isLt
  have hN : cfg1.N = 200 := N_1
  refine ⟨⟨(i 0).val / 16000, by rw [hN]; omega⟩, flush1_2 _, ?_⟩
  rw [mem_blk]
  obtain ⟨-, -, -, -, e0, e1⟩ := idx_facts ⟨(i 0).val / 16000, by rw [hN]; omega⟩
  intro a
  match a with
  | ⟨0, _⟩ =>
    show win1_2.index _ (0 : Fin 2) * 16000 ≤ (i 0).val ∧ (i 0).val < win1_2.index _ (0 : Fin 2) * 16000 + 16000
    rw [e0]; show (i 0).val / 16000 * 16000 ≤ (i 0).val ∧ (i 0).val < (i 0).val / 16000 * 16000 + 16000; omega
  | ⟨1, _⟩ =>
    show win1_2.index _ (1 : Fin 2) * 64 ≤ (i 1).val ∧ (i 1).val < win1_2.index _ (1 : Fin 2) * 64 + 64
    rw [e1]; omega

/-- The array region 1 leaves: the edge values times the gathered rows. -/
theorem final1 (c : Dev nD) : ((dat1 (F := Ideal) V c).arrAt 2 cfg1.N : Vec Ideal S3200000x64 .f32)
    = mulf (F := Ideal) (φ := .f32) (broadcastInDim S3200000x64 ![0, 1] bc64 (V c main_v5 : Vec Ideal S3200000x1 .f32)) (V c main_v12 : Vec Ideal S3200000x64 .f32) :=
  (dat1 V c).arrAt_eq_of_cover 2 (scaled V c) (fun t _ => flushed_eq V c t) cover

end Cert.KernelIdeal.Hand.Scale1

end
-- ==== Proof.Scale2Region.lean ====
/-
  Region 2 of the program: the per-edge scaling `scaled = gathered * values[:, None]`, tiled in 200 row blocks of
  16000 edges.  At grid point `t` the body reads rows 16000·t … 16000·t+15999 of the gathered [3200000,64] array and of
  the [3200000,1] column of edge values, broadcasts the column along the 64 lanes and multiplies; the block it writes
  back is the same rows of the result.  Multiplication of extended reals commutes, so the array the region leaves is
  `(broadcast of the value column) * gathered`, entry by entry: the form the reference computes it in.
-/
import proofs.«130126_j13357348290975_1_alg».proof.Proof.Gen.KernelIdeal.Frame
import proofs.«130126_j13357348290975_1_alg».proof.Proof.Stage
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Hand.Scale2

open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-- The row of the value column that entry `j` of a block is scaled by. -/
abbrev blkRow (j : S16000x64.Idx) : S16000x1.Idx := fun a => match a with
  | ⟨0, _⟩ => ⟨(j 0).val, (j 0).isLt⟩
  | ⟨1, _⟩ => ⟨0, Nat.one_pos⟩

/-- The same for the whole arrays. -/
abbrev arrRow (i : S3200000x64.Idx) : S3200000x1.Idx := fun a => match a with
  | ⟨0, _⟩ => ⟨(i 0).val, (i 0).isLt⟩
  | ⟨1, _⟩ => ⟨0, Nat.one_pos⟩

/-- The gathered array and the value column as the region finds them, at their literal types. -/
abbrev gArr (c : Dev nD) : Vec Ideal S3200000x64 .f32 := V c main_v23
abbrev vCol (c : Dev nD) : Vec Ideal S3200000x1 .f32 := V c main_v5

/-- What the region leaves: the value column broadcast along the lanes, times the gathered array. -/
abbrev scaled (c : Dev nD) : Vec Ideal S3200000x64 .f32 :=
  mulf (F := Ideal) (φ := .f32) (broadcastInDim S3200000x64 ![0, 1] bc64 (vCol V c)) (gArr V c)

/-- The body's payload at an entry: the row's edge value times the gathered entry. -/
theorem pay_apply (x1 : Vec Ideal S16000x1 .f32) (x0 : Vec Ideal S16000x64 .f32) (j : S16000x64.Idx) :
    k2_pay1 (F := Ideal) x1 x0 j = x1 (blkRow j) * x0 j := by
  unfold k2_pay1
  rw [ValueIdx.mulf_apply, shapeCast_self, shapeCast_self, shapeCast_self, mul_comm]
  congr 1
  exact broadcastTo_apply x1 _ j (blkRow j) (fun a => match a with
    | ⟨0, _⟩ => rfl
    | ⟨1, _⟩ => rfl)

/-- The printed index maps over the grid: every window's block index is the point's number on the row axis and 0 on
    the lane axis. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Block `t` of the gathered array is its rows 16000·t … 16000·t+15999. -/
theorem gblk_apply (c : Dev nD) (t : Fin cfg2.N) (x : S16000x64.Idx) (k : S3200000x64.Idx)
    (hk0 : (k 0).val = 16000 * t.val + (x 0).val) (hk1 : (k 1).val = (x 1).val) :
    (iblk2 V c 0 t : Vec Ideal S16000x64 .f32) x = gArr V c k := by
  obtain ⟨e0, e1, -, -, -, -⟩ := idx_facts t
  unfold iblk2
  rw [View.read_apply]
  show V c main_v23 _ = V c main_v23 _
  congr 1
  funext a
  apply Fin.ext
  match a with
  | ⟨0, _⟩ => show win2_0.index t (0 : Fin 2) * 16000 + 1 * (x 0).val = (k 0).val; rw [e0, hk0]; omega
  | ⟨1, _⟩ => show win2_0.index t (1 : Fin 2) * 64 + 1 * (x 1).val = (k 1).val; rw [e1, hk1]; omega

/-- Block `t` of the value column is its rows 16000·t … 16000·t+15999. -/
theorem vblk_apply (c : Dev nD) (t : Fin cfg2.N) (x : S16000x1.Idx) (k : S3200000x1.Idx)
    (hk0 : (k 0).val = 16000 * t.val + (x 0).val) (hk1 : (k 1).val = (x 1).val) :
    (iblk2 V c 1 t : Vec Ideal S16000x1 .f32) x = vCol V c k := by
  obtain ⟨-, -, e0, e1, -, -⟩ := idx_facts t
  unfold iblk2
  rw [View.read_apply]
  show V c main_v5 _ = V c main_v5 _
  congr 1
  funext a
  apply Fin.ext
  match a with
  | ⟨0, _⟩ => show win2_1.index t (0 : Fin 2) * 16000 + 1 * (x 0).val = (k 0).val; rw [e0, hk0]; omega
  | ⟨1, _⟩ => show win2_1.index t (1 : Fin 2) * 1 + 1 * (x 1).val = (k 1).val; rw [e1, hk1]; omega

/-- What point `t` writes back is block `t` of `scaled`. -/
theorem flushed_eq (c : Dev nD) (t : Fin cfg2.N) :
    (dat2 V c).flushed 2 t = ((cfg2.win 2).blk t).view.read (Elt Ideal) (scaled V c) := by
  show (cfg2.win 2).cut (grid2.coords t) ((dat2 V c).after 2 t) = _
  rw [after2_2]
  unfold out2_2
  rw [View.canon_unit_zero hz]
  simp only [View.ld_unit_zero (S := S16000x1) hz, View.ld_unit_zero (S := S16000x64) hz]
  obtain ⟨-, -, -, -, e0, e1⟩ := idx_facts t
  funext j
  show k2_pay1 (iblk2 V c 1 t) (iblk2 V c 0 t) j = scaled V c (((cfg2.win 2).blk t).view.emb j)
  have hi0 : ((((cfg2.win 2).blk t).view.emb j) 0).val = 16000 * t.val + (j 0).val := by
    show win2_2.index t (0 : Fin 2) * 16000 + 1 * (j 0).val = _; rw [e0]; omega
  have hi1 : ((((cfg2.win 2).blk t).view.emb j) 1).val = (j 1).val := by
    show win2_2.index t (1 : Fin 2) * 64 + 1 * (j 1).val = _; rw [e1]; omega
  generalize ((cfg2.win 2).blk t).view.emb j = i at hi0 hi1
  refine (pay_apply (iblk2 V c 1 t) (iblk2 V c 0 t) j).trans ?_
  rw [gblk_apply V c t j i hi0 hi1, vblk_apply V c t (blkRow j) (arrRow i) hi0 rfl]
  show _ = broadcastInDim S3200000x64 ![0, 1] bc64 (vCol V c) i * gArr V c i
  congr 1
  exact (broadcastInDim_apply ![0, 1] bc64 (vCol V c) i (arrRow i) (fun a => match a with
    | ⟨0, _⟩ => rfl
    | ⟨1, _⟩ => rfl)).symm

/-- An entry lies in point `t`'s block iff its row is among the block's 16000 rows. -/
theorem mem_blk (t : Fin cfg2.N) (i : S3200000x64.Idx) :
    i ∈ ((cfg2.win 2).blk t).view.set ↔ ∀ a : Fin 2, win2_2.index t a * S16000x64.size a ≤ (i a).val ∧ (i a).val < win2_2.index t a * S16000x64.size a + S16000x64.size a := by
  show i ∈ ((View.whole main_v24).slice (win2_2.rect t)).set ↔ _
  rw [View.set_slice_whole, Rect.mem_set_unit]
  exact Iff.rfl

/-- Row `r` is written back by point `r / 16000`: the 200 blocks cover the array. -/
theorem cover (i : S3200000x64.Idx) :
    ∃ t : Fin cfg2.N, (cfg2.win 2).flush t = true ∧ i ∈ ((cfg2.win 2).blk t).view.set := by
  have h0 : (i 0).val < 3200000 := (i 0).isLt
  have h1 : (i 1).val < 64 := (i 1).isLt
  have hN : cfg2.N = 200 := N_2
  refine ⟨⟨(i 0).val / 16000, by rw [hN]; omega⟩, flush2_2 _, ?_⟩
  rw [mem_blk]
  obtain ⟨-, -, -, -, e0, e1⟩ := idx_facts ⟨(i 0).val / 16000, by rw [hN]; omega⟩
  intro a
  match a with
  | ⟨0, _⟩ =>
    show win2_2.index _ (0 : Fin 2) * 16000 ≤ (i 0).val ∧ (i 0).val < win2_2.index _ (0 : Fin 2) * 16000 + 16000
    rw [e0]; show (i 0).val / 16000 * 16000 ≤ (i 0).val ∧ (i 0).val < (i 0).val / 16000 * 16000 + 16000; omega
  | ⟨1, _⟩ =>
    show win2_2.index _ (1 : Fin 2) * 64 ≤ (i 1).val ∧ (i 1).val < win2_2.index _ (1 : Fin 2) * 64 + 64
    rw [e1]; omega

/-- The array region 2 leaves: the edge values times the gathered rows. -/
theorem final2 (c : Dev nD) : ((dat2 (F := Ideal) V c).arrAt 2 cfg2.N : Vec Ideal S3200000x64 .f32)
    = mulf (F := Ideal) (φ := .f32) (broadcastInDim S3200000x64 ![0, 1] bc64 (V c main_v5 : Vec Ideal S3200000x1 .f32)) (V c main_v23 : Vec Ideal S3200000x64 .f32) :=
  (dat2 V c).arrAt_eq_of_cover 2 (scaled V c) (fun t _ => flushed_eq V c t) cover

end Cert.KernelIdeal.Hand.Scale2

end
-- ==== Proof.BiasRegion.lean ====
/-
  Region 3 of the program: the bias add `out = base + bias`, tiled in 10 row blocks of 10000 nodes.  At grid point `t`
  the body reads rows 10000·t … 10000·t+9999 of the [100000,64] array and the whole [1,64] bias row, broadcasts the row
  down the 10000 sublanes and adds; the block it writes back is the same rows of the result.  So the array the region
  leaves is `base + (broadcast of the bias row)`, entry by entry: the form the reference computes it in.
-/
import proofs.«130126_j13357348290975_1_alg».proof.Proof.Gen.KernelIdeal.Frame
import proofs.«130126_j13357348290975_1_alg».proof.Proof.Stage
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Hand.Bias

open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-- The entry of the bias row that entry `j` of a block is shifted by. -/
abbrev blkCol (j : S10000x64.Idx) : S1x64.Idx := fun a => match a with
  | ⟨0, _⟩ => ⟨0, Nat.one_pos⟩
  | ⟨1, _⟩ => ⟨(j 1).val, (j 1).isLt⟩

/-- The same for the whole array. -/
abbrev arrCol (i : S100000x64.Idx) : S1x64.Idx := fun a => match a with
  | ⟨0, _⟩ => ⟨0, Nat.one_pos⟩
  | ⟨1, _⟩ => ⟨(i 1).val, (i 1).isLt⟩

/-- The propagated array and the bias row as the region finds them, at their literal types. -/
abbrev xArr (c : Dev nD) : Vec Ideal S100000x64 .f32 := V c main_v27
abbrev bRow (c : Dev nD) : Vec Ideal S1x64 .f32 := V c main_arg4

/-- What the region leaves: the array plus the bias row broadcast down the rows. -/
abbrev shifted (c : Dev nD) : Vec Ideal S100000x64 .f32 :=
  addf (F := Ideal) (φ := .f32) (xArr V c) (broadcastInDim S100000x64 ![0, 1] bcb (bRow V c))

/-- The body's payload at an entry: the block's entry plus the bias of its column. -/
theorem pay_apply (x1 : Vec Ideal S1x64 .f32) (x0 : Vec Ideal S10000x64 .f32) (j : S10000x64.Idx) :
    k3_pay1 (F := Ideal) x1 x0 j = x0 j + x1 (blkCol j) := by
  unfold k3_pay1
  rw [ValueIdx.addf_apply, shapeCast_self, shapeCast_self]
  congr 1
  exact broadcastTo_apply x1 _ j (blkCol j) (fun a => match a with
    | ⟨0, _⟩ => rfl
    | ⟨1, _⟩ => rfl)

/-- The printed index maps over the grid: the array's and the result's block index is the point's number on the row
    axis and 0 on the lane axis; the bias row's is (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Block `t` of the array is its rows 10000·t … 10000·t+9999. -/
theorem xblk_apply (c : Dev nD) (t : Fin cfg3.N) (x : S10000x64.Idx) (k : S100000x64.Idx)
    (hk0 : (k 0).val = 10000 * t.val + (x 0).val) (hk1 : (k 1).val = (x 1).val) :
    (iblk3 V c 0 t : Vec Ideal S10000x64 .f32) x = xArr V c k := by
  obtain ⟨e0, e1, -, -, -, -⟩ := idx_facts t
  unfold iblk3
  rw [View.read_apply]
  show V c main_v27 _ = V c main_v27 _
  congr 1
  funext a
  apply Fin.ext
  match a with
  | ⟨0, _⟩ => show win3_0.index t (0 : Fin 2) * 10000 + 1 * (x 0).val = (k 0).val; rw [e0, hk0]; omega
  | ⟨1, _⟩ => show win3_0.index t (1 : Fin 2) * 64 + 1 * (x 1).val = (k 1).val; rw [e1, hk1]; omega

/-- The bias window's one block is the whole row. -/
theorem bblk_apply (c : Dev nD) (t : Fin cfg3.N) (x : S1x64.Idx) :
    (iblk3 V c 1 t : Vec Ideal S1x64 .f32) x = bRow V c x := by
  obtain ⟨-, -, e0, e1, -, -⟩ := idx_facts t
  unfold iblk3
  rw [View.read_apply]
  show V c main_arg4 _ = V c main_arg4 _
  congr 1
  funext a
  apply Fin.ext
  match a with
  | ⟨0, _⟩ => show win3_1.index t (0 : Fin 2) * 1 + 1 * (x 0).val = (x 0).val; rw [e0]; omega
  | ⟨1, _⟩ => show win3_1.index t (1 : Fin 2) * 64 + 1 * (x 1).val = (x 1).val; rw [e1]; omega

/-- What point `t` writes back is block `t` of `shifted`. -/
theorem flushed_eq (c : Dev nD) (t : Fin cfg3.N) :
    (dat3 V c).flushed 2 t = ((cfg3.win 2).blk t).view.read (Elt Ideal) (shifted V c) := by
  show (cfg3.win 2).cut (grid3.coords t) ((dat3 V c).after 2 t) = _
  rw [after3_2]
  unfold out3_2
  rw [View.canon_unit_zero hz]
  simp only [View.ld_unit_zero (S := S1x64) hz, View.ld_unit_zero (S := S10000x64) hz]
  obtain ⟨-, -, -, -, e0, e1⟩ := idx_facts t
  funext j
  show k3_pay1 (iblk3 V c 1 t) (iblk3 V c 0 t) j = shifted V c (((cfg3.win 2).blk t).view.emb j)
  have hi0 : ((((cfg3.win 2).blk t).view.emb j) 0).val = 10000 * t.val + (j 0).val := by
    show win3_2.index t (0 : Fin 2) * 10000 + 1 * (j 0).val = _; rw [e0]; omega
  have hi1 : ((((cfg3.win 2).blk t).view.emb j) 1).val = (j 1).val := by
    show win3_2.index t (1 : Fin 2) * 64 + 1 * (j 1).val = _; rw [e1]; omega
  generalize ((cfg3.win 2).blk t).view.emb j = i at hi0 hi1
  refine (pay_apply (iblk3 V c 1 t) (iblk3 V c 0 t) j).trans ?_
  rw [xblk_apply V c t j i hi0 hi1, bblk_apply V c t (blkCol j)]
  show _ = xArr V c i + broadcastInDim S100000x64 ![0, 1] bcb (bRow V c) i
  congr 1
  refine Eq.trans ?_ (broadcastInDim_apply ![0, 1] bcb (bRow V c) i (arrCol i) (fun a => match a with
    | ⟨0, _⟩ => rfl
    | ⟨1, _⟩ => rfl)).symm
  exact congrArg (bRow V c) (funext fun a => Fin.ext (by
    match a with
    | ⟨0, _⟩ => rfl
    | ⟨1, _⟩ => exact hi1.symm))

/-- An entry lies in point `t`'s block iff its row is among the block's 10000 rows. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v28).slice (win3_2.rect t)).set ↔ _
  rw [View.set_slice_whole, Rect.mem_set_unit]
  exact Iff.rfl

/-- Row `r` is written back by point `r / 10000`: the 10 blocks cover the array. -/
theorem cover (i : S100000x64.Idx) :
    ∃ t : Fin cfg3.N, (cfg3.win 2).flush t = true ∧ i ∈ ((cfg3.win 2).blk t).view.set := by
  have h0 : (i 0).val < 100000 := (i 0).isLt
  have h1 : (i 1).val < 64 := (i 1).isLt
  have hN : cfg3.N = 10 := N_3
  refine ⟨⟨(i 0).val / 10000, by rw [hN]; omega⟩, flush3_2 _, ?_⟩
  rw [mem_blk]
  obtain ⟨-, -, -, -, e0, e1⟩ := idx_facts ⟨(i 0).val / 10000, by rw [hN]; omega⟩
  intro a
  match a with
  | ⟨0, _⟩ =>
    show win3_2.index _ (0 : Fin 2) * 10000 ≤ (i 0).val ∧ (i 0).val < win3_2.index _ (0 : Fin 2) * 10000 + 10000
    rw [e0]; show (i 0).val / 10000 * 10000 ≤ (i 0).val ∧ (i 0).val < (i 0).val / 10000 * 10000 + 10000; omega
  | ⟨1, _⟩ =>
    show win3_2.index _ (1 : Fin 2) * 64 ≤ (i 1).val ∧ (i 1).val < win3_2.index _ (1 : Fin 2) * 64 + 64
    rw [e1]; omega

/-- The array region 3 leaves: the propagated array plus the bias row. -/
theorem final3 (c : Dev nD) : ((dat3 (F := Ideal) V c).arrAt 2 cfg3.N : Vec Ideal S100000x64 .f32)
    = addf (F := Ideal) (φ := .f32) (V c main_v27 : Vec Ideal S100000x64 .f32) (broadcastInDim S100000x64 ![0, 1] bcb (V c main_arg4 : Vec Ideal S1x64 .f32)) :=
  (dat3 V c).arrAt_eq_of_cover 2 (shifted V c) (fun t _ => flushed_eq V c t) cover

end Cert.KernelIdeal.Hand.Bias

end
-- ==== Proof.Chain.lean ====
/-
  The kernel program's result array as ONE term of its argument arrays.

  @main is: the projection region; a stretch of host operations (split the [2, E] index array into its row and column
  vectors, wrap negative column indices, gather the projected rows at the columns); the scaling region; a stretch
  (scatter-add the scaled rows at the row indices into zeros, gather again at the columns); the scaling region again;
  a stretch (scatter-add again); the bias region.  The generated frame names the buffer contents at each of the eight
  segment boundaries (`Gen.W0` … `Gen.W7`); here each boundary's contents are read, buffer by buffer, from the boundary
  before: a host stretch by its operations' values, a region by the whole-array function its module proves.  Composed:
  `result = prop (prop P) + bias`, where `P` is what the projection region leaves and
  `prop B = scatterAdd zeros rows ((values broadcast along the lanes) * gather B cols)`.
-/
import proofs.«130126_j13357348290975_1_alg».proof.Proof.Gen.KernelIdeal.Frame
import proofs.«130126_j13357348290975_1_alg».proof.Proof.Stage
import proofs.«130126_j13357348290975_1_alg».proof.Proof.ScaleRegion
import proofs.«130126_j13357348290975_1_alg».proof.Proof.Scale2Region
import proofs.«130126_j13357348290975_1_alg».proof.Proof.BiasRegion
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

/-! ## The host stages as functions -/

/-- The row (destination) indices of the edges, as the [E, 1] index column the scatter takes. -/
def rowIx (idx : (⟨S2x3200000, .i32⟩ : BufTy).Contents (Elt Ideal)) : (⟨S3200000x1, .i32⟩ : BufTy).Contents (Elt Ideal) :=
  broadcastInDim S3200000x1 ![0] bcast_S3200000_S3200000x1_0
    (shapeCast _ (extractStridedSlice S1x3200000 ![0, 0] idx slices_S2x3200000_S1x3200000_0_0) shapeCasts_S1x3200000_S3200000)

/-- The column (source) indices of the edges as a vector. -/
def colRaw (idx : (⟨S2x3200000, .i32⟩ : BufTy).Contents (Elt Ideal)) : (⟨S3200000, .i32⟩ : BufTy).Contents (Elt Ideal) :=
  shapeCast _ (extractStridedSlice S1x3200000 ![1, 0] idx slices_S2x3200000_S1x3200000_1_0) shapeCasts_S1x3200000_S3200000

/-- The column indices with the negative ones wrapped by the node count, as the [E, 1] index column the gather takes. -/
def colIx (col : (⟨S3200000, .i32⟩ : BufTy).Contents (Elt Ideal)) : (⟨S3200000x1, .i32⟩ : BufTy).Contents (Elt Ideal) :=
  broadcastInDim S3200000x1 ![0] bcast_S3200000_S3200000x1_0
    (select (cmpi .slt col (broadcastInDim S3200000 ![] bcast_S_S3200000 (constantI S_ 32 0#32)))
      (addi col (broadcastInDim S3200000 ![] bcast_S_S3200000 (constantI S_ 32 100000#32))) col)

/-- The edge values as an [E, 1] column. -/
def valCol (vals : Vec Ideal S3200000 .f32) : Vec Ideal S3200000x1 .f32 :=
  broadcastInDim S3200000x1 ![0] bcast_S3200000_S3200000x1_0 vals

/-- The scatter's zero operand. -/
def zeros : Vec Ideal S100000x64 .f32 :=
  broadcastInDim S100000x64 ![] bcast_S_S100000x64 (constant (F := Ideal) S_ .f32 0x00000000#32)

/-- One propagation along the edges: gather the source rows, scale each by its edge value, sum into the destinations. -/
def prop (rows cols : (⟨S3200000x1, .i32⟩ : BufTy).Contents (Elt Ideal)) (vcol : Vec Ideal S3200000x1 .f32)
    (B : Vec Ideal S100000x64 .f32) : Vec Ideal S100000x64 .f32 :=
  Host.scatterAdd scatter_S100000x64_S3200000x1_S3200000x64_1_0_0_1 zeros rows
    (mulf (F := Ideal) (φ := .f32) (broadcastInDim S3200000x64 ![0, 1] bc64 vcol)
      (Host.gather gather_S100000x64_S3200000x1_S3200000x64_1_0_n_n_0_1_164 B cols))

/-- The whole layer after the projection `P`: two propagations and the bias. -/
def layer (idx : (⟨S2x3200000, .i32⟩ : BufTy).Contents (Elt Ideal)) (vals : Vec Ideal S3200000 .f32) (b : Vec Ideal S1x64 .f32)
    (P : Vec Ideal S100000x64 .f32) : Vec Ideal S100000x64 .f32 :=
  addf (F := Ideal) (φ := .f32)
    (prop (rowIx idx) (colIx (colRaw idx)) (valCol vals) (prop (rowIx idx) (colIx (colRaw idx)) (valCol vals) P))
    (broadcastInDim S100000x64 ![0, 1] bcb b)

variable (m : (ℓ : Loc nD τ sig) → Buf (Elt Ideal) ℓ) (ρ : Dev nD → PrngReg)

/-! ## After the projection region (boundary 1): only `main_v0` has changed -/

theorem W1_arg0 (c : Dev nD) : W1 m ρ c (Proc.devRef .tc main_arg0) = m ((c : Thread nD τ).loc main_arg0) :=
  W1_of_ne m ρ c main_arg0 (by decide)
theorem W1_arg1 (c : Dev nD) : W1 m ρ c (Proc.devRef .tc main_arg1) = m ((c : Thread nD τ).loc main_arg1) :=
  W1_of_ne m ρ c main_arg1 (by decide)
theorem W1_arg4 (c : Dev nD) : W1 m ρ c (Proc.devRef .tc main_arg4) = m ((c : Thread nD τ).loc main_arg4) :=
  W1_of_ne m ρ c main_arg4 (by decide)

/-! ## After the first host stretch (boundary 2) -/

theorem W2_v2 (c : Dev nD) : W2 m ρ c (Proc.devRef .tc main_v2)
    = shapeCast _ (extractStridedSlice S1x3200000 ![0, 0] (m ((c : Thread nD τ).loc main_arg0)) slices_S2x3200000_S1x3200000_0_0) shapeCasts_S1x3200000_S3200000 := by
  show StableHlo.after hostOps1 (W1 m ρ c) (Proc.devRef .tc main_v2) = _
  after_results
  rw [W1_arg0]
  rfl
theorem W2_v4 (c : Dev nD) : W2 m ρ c (Proc.devRef .tc main_v4) = colRaw (m ((c : Thread nD τ).loc main_arg0)) := by
  show StableHlo.after hostOps1 (W1 m ρ c) (Proc.devRef .tc main_v4) = _
  after_results
  rw [W1_arg0]
  rfl
theorem W2_v5 (c : Dev nD) : W2 m ρ c (Proc.devRef .tc main_v5) = valCol (m ((c : Thread nD τ).loc main_arg1)) := by
  show StableHlo.after hostOps1 (W1 m ρ c) (Proc.devRef .tc main_v5) = _
  after_results
  rw [W1_arg1]
  rfl
theorem W2_arg4 (c : Dev nD) : W2 m ρ c (Proc.devRef .tc main_arg4) = m ((c : Thread nD τ).loc main_arg4) := by
  show StableHlo.after hostOps1 (W1 m ρ c) (Proc.devRef .tc main_arg4) = _
  after_results
  exact W1_arg4 m ρ c
theorem W2_v12 (c : Dev nD) : W2 m ρ c (Proc.devRef .tc main_v12)
    = Host.gather gather_S100000x64_S3200000x1_S3200000x64_1_0_n_n_0_1_164 (W1 m ρ c (Proc.devRef .tc main_v0))
        (colIx (colRaw (m ((c : Thread nD τ).loc main_arg0)))) := by
  show StableHlo.after hostOps1 (W1 m ρ c) (Proc.devRef .tc main_v12) = _
  after_results
  rw [W1_arg0]
  rfl

/-! ## After the first scaling region (boundary 3) -/

theorem W3_v2 (c : Dev nD) : W3 m ρ c (Proc.devRef .tc main_v2)
    = shapeCast _ (extractStridedSlice S1x3200000 ![0, 0] (m ((c : Thread nD τ).loc main_arg0)) slices_S2x3200000_S1x3200000_0_0) shapeCasts_S1x3200000_S3200000 :=
  (W3_of_ne m ρ c main_v2 (by decide)).trans (W2_v2 m ρ c)
theorem W3_v4 (c : Dev nD) : W3 m ρ c (Proc.devRef .tc main_v4) = colRaw (m ((c : Thread nD τ).loc main_arg0)) :=
  (W3_of_ne m ρ c main_v4 (by decide)).trans (W2_v4 m ρ c)
/-- The value column is an input of the scaling region: it leaves it as it found it. -/
theorem W3_v5 (c : Dev nD) : W3 m ρ c (Proc.devRef .tc main_v5) = valCol (m ((c : Thread nD τ).loc main_arg1)) :=
  (W3_arr m ρ c 1).trans ((((dat1 (V2 m ρ) c).arrAt_in 1 rfl _).trans (A_eq1 (V2 m ρ) c 1)).trans (W2_v5 m ρ c))
theorem W3_arg4 (c : Dev nD) : W3 m ρ c (Proc.devRef .tc main_arg4) = m ((c : Thread nD τ).loc main_arg4) :=
  (W3_of_ne m ρ c main_arg4 (by decide)).trans (W2_arg4 m ρ c)
/-- The scaled rows of the first propagation. -/
theorem W3_v13 (c : Dev nD) : W3 m ρ c (Proc.devRef .tc main_v13)
    = mulf (F := Ideal) (φ := .f32) (broadcastInDim S3200000x64 ![0, 1] bc64 (valCol (m ((c : Thread nD τ).loc main_arg1))))
        (Host.gather gather_S100000x64_S3200000x1_S3200000x64_1_0_n_n_0_1_164 (W1 m ρ c (Proc.devRef .tc main_v0))
          (colIx (colRaw (m ((c : Thread nD τ).loc main_arg0))))) := by
  refine (W3_arr m ρ c 2).trans ((Scale1.final1 (V2 m ρ) c).trans ?_)
  show mulf (F := Ideal) (φ := .f32) (broadcastInDim S3200000x64 ![0, 1] bc64 (W2 m ρ c (Proc.devRef .tc main_v5) : Vec Ideal S3200000x1 .f32))
    (W2 m ρ c (Proc.devRef .tc main_v12) : Vec Ideal S3200000x64 .f32) = _
  rw [W2_v5, W2_v12]

/-! ## After the second host stretch (boundary 4) -/

theorem W4_v2 (c : Dev nD) : W4 m ρ c (Proc.devRef .tc main_v2)
    = shapeCast _ (extractStridedSlice S1x3200000 ![0, 0] (m ((c : Thread nD τ).loc main_arg0)) slices_S2x3200000_S1x3200000_0_0) shapeCasts_S1x3200000_S3200000 := by
  show StableHlo.after hostOps2 (W3 m ρ c) (Proc.devRef .tc main_v2) = _
  after_results
  exact W3_v2 m ρ c
theorem W4_v5 (c : Dev nD) : W4 m ρ c (Proc.devRef .tc main_v5) = valCol (m ((c : Thread nD τ).loc main_arg1)) := by
  show StableHlo.after hostOps2 (W3 m ρ c) (Proc.devRef .tc main_v5) = _
  after_results
  exact W3_v5 m ρ c
theorem W4_arg4 (c : Dev nD) : W4 m ρ c (Proc.devRef .tc main_arg4) = m ((c : Thread nD τ).loc main_arg4) := by
  show StableHlo.after hostOps2 (W3 m ρ c) (Proc.devRef .tc main_arg4) = _
  after_results
  exact W3_arg4 m ρ c
/-- The first propagation's sums, gathered again at the columns. -/
theorem W4_v23 (c : Dev nD) : W4 m ρ c (Proc.devRef .tc main_v23)
    = Host.gather gather_S100000x64_S3200000x1_S3200000x64_1_0_n_n_0_1_164
        (prop (rowIx (m ((c : Thread nD τ).loc main_arg0))) (colIx (colRaw (m ((c : Thread nD τ).loc main_arg0))))
          (valCol (m ((c : Thread nD τ).loc main_arg1))) (W1 m ρ c (Proc.devRef .tc main_v0)))
        (colIx (colRaw (m ((c : Thread nD τ).loc main_arg0)))) := by
  show StableHlo.after hostOps2 (W3 m ρ c) (Proc.devRef .tc main_v23) = _
  after_results
  rw [W3_v2, W3_v4, W3_v13]
  rfl

/-! ## After the second scaling region (boundary 5) -/

theorem W5_v2 (c : Dev nD) : W5 m ρ c (Proc.devRef .tc main_v2)
    = shapeCast _ (extractStridedSlice S1x3200000 ![0, 0] (m ((c : Thread nD τ).loc main_arg0)) slices_S2x3200000_S1x3200000_0_0) shapeCasts_S1x3200000_S3200000 :=
  (W5_of_ne m ρ c main_v2 (by decide)).trans (W4_v2 m ρ c)
theorem W5_arg4 (c : Dev nD) : W5 m ρ c (Proc.devRef .tc main_arg4) = m ((c : Thread nD τ).loc main_arg4) :=
  (W5_of_ne m ρ c main_arg4 (by decide)).trans (W4_arg4 m ρ c)
/-- The scaled rows of the second propagation. -/
theorem W5_v24 (c : Dev nD) : W5 m ρ c (Proc.devRef .tc main_v24)
    = mulf (F := Ideal) (φ := .f32) (broadcastInDim S3200000x64 ![0, 1] bc64 (valCol (m ((c : Thread nD τ).loc main_arg1))))
        (Host.gather gather_S100000x64_S3200000x1_S3200000x64_1_0_n_n_0_1_164
          (prop (rowIx (m ((c : Thread nD τ).loc main_arg0))) (colIx (colRaw (m ((c : Thread nD τ).loc main_arg0))))
            (valCol (m ((c : Thread nD τ).loc main_arg1))) (W1 m ρ c (Proc.devRef .tc main_v0)))
          (colIx (colRaw (m ((c : Thread nD τ).loc main_arg0))))) := by
  refine (W5_arr m ρ c 2).trans ((Scale2.final2 (V4 m ρ) c).trans ?_)
  show mulf (F := Ideal) (φ := .f32) (broadcastInDim S3200000x64 ![0, 1] bc64 (W4 m ρ c (Proc.devRef .tc main_v5) : Vec Ideal S3200000x1 .f32))
    (W4 m ρ c (Proc.devRef .tc main_v23) : Vec Ideal S3200000x64 .f32) = _
  rw [W4_v5, W4_v23]

/-! ## After the third host stretch (boundary 6) -/

theorem W6_arg4 (c : Dev nD) : W6 m ρ c (Proc.devRef .tc main_arg4) = m ((c : Thread nD τ).loc main_arg4) := by
  show StableHlo.after hostOps3 (W5 m ρ c) (Proc.devRef .tc main_arg4) = _
  after_results
  exact W5_arg4 m ρ c
/-- The second propagation's sums. -/
theorem W6_v27 (c : Dev nD) : W6 m ρ c (Proc.devRef .tc main_v27)
    = prop (rowIx (m ((c : Thread nD τ).loc main_arg0))) (colIx (colRaw (m ((c : Thread nD τ).loc main_arg0))))
        (valCol (m ((c : Thread nD τ).loc main_arg1)))
        (prop (rowIx (m ((c : Thread nD τ).loc main_arg0))) (colIx (colRaw (m ((c : Thread nD τ).loc main_arg0))))
          (valCol (m ((c : Thread nD τ).loc main_arg1))) (W1 m ρ c (Proc.devRef .tc main_v0))) := by
  show StableHlo.after hostOps3 (W5 m ρ c) (Proc.devRef .tc main_v27) = _
  after_results
  rw [W5_v2, W5_v24]
  rfl

/-! ## After the bias region (boundary 7): the result -/

/-- The result array at the end of @main, over what the projection region left in `main_v0`. -/
theorem W7_v28 (c : Dev nD) : W7 m ρ c (Proc.devRef .tc main_v28)
    = layer (m ((c : Thread nD τ).loc main_arg0)) (m ((c : Thread nD τ).loc main_arg1)) (m ((c : Thread nD τ).loc main_arg4))
        (W1 m ρ c (Proc.devRef .tc main_v0)) := by
  refine (W7_arr m ρ c 2).trans ((Bias.final3 (V6 m ρ) c).trans ?_)
  show addf (F := Ideal) (φ := .f32) (W6 m ρ c (Proc.devRef .tc main_v27) : Vec Ideal S100000x64 .f32)
    (broadcastInDim S100000x64 ![0, 1] bcb (W6 m ρ c (Proc.devRef .tc main_arg4) : Vec Ideal S1x64 .f32)) = _
  rw [W6_v27, W6_arg4]
  rfl

end Cert.KernelIdeal.Hand

end
-- ==== Proof.ProjRegion.lean ====
/-
  Region 0 of the program: the dense projection `base = features · weight`, tiled in 10 row blocks of 10000 rows.
  At grid point `t` the body reads rows 10000·t … 10000·t+9999 of the [100000,128] feature array and the whole
  [128,64] weight, and stores their product accumulated from zero; the block it writes back is the same rows of the
  result.  At the ideal values the narrowing of the operands changes nothing, so entry (r, n) of a block's product
  is the sum over the 128 contraction positions k of feature (r, k) · weight (k, n).  Read through the block's rows
  that is entry (10000·t + r, n) of the whole-array projection `projOf`, and the ten blocks cover the result.
-/
import proofs.«130126_j13357348290975_1_alg».proof.Proof.Gen.KernelIdeal.Frame
import proofs.«130126_j13357348290975_1_alg».proof.Proof.Stage
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace Proj0

/-! ## One block's product at an entry -/

/-- Row `j 0` of a feature block at contraction position `k`. -/
abbrev blkL (j : S10000x64.Idx) (k : Fin 128) : S10000x128.Idx := fun a => match a with
  | ⟨0, _⟩ => ⟨(j 0).val, (j 0).isLt⟩
  | ⟨1, _⟩ => ⟨k.val, k.isLt⟩

/-- Column `j 1` of the weight at contraction position `k`. -/
abbrev blkR (j : S10000x64.Idx) (k : Fin 128) : S128x64.Idx := fun a => match a with
  | ⟨0, _⟩ => ⟨k.val, k.isLt⟩
  | ⟨1, _⟩ => ⟨(j 1).val, (j 1).isLt⟩

/-- The left operand's row is the output's row. -/
theorem lhs_blk_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the contraction position. -/
theorem lhs_blk_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
/-- The right operand's row is the contraction position. -/
theorem rhs_blk_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
/-- The right operand's column is the output's column. -/
theorem rhs_blk_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's payload at an entry: the row of the feature block against the column of the weight. -/
theorem pay_apply (x0 : Vec Ideal S10000x128 .f32) (x1 : Vec Ideal S128x64 .f32) (j : S10000x64.Idx) :
    k0_pay1 (F := Ideal) x0 x1 j = ∑ k : Fin 128, x0 (blkL j k) * x1 (blkR j k) := by
  unfold k0_pay1
  show FloatOps.matmul dot_S10000x128_S128x64_S10000x64_1_0_0_1_n_n none (truncf (F := Ideal) .bf16 (x0 : FVec Ideal S10000x128 .f32) bitsLt_bf16_f32)
      (truncf (F := Ideal) .bf16 (x1 : FVec Ideal S128x64 .f32) bitsLt_bf16_f32)
      (constant (F := Ideal) S10000x64 .f32 0x00000000#32) j = _
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = blkL j k := funext fun a => Fin.ext (by
    match a with
    | ⟨0, _⟩ => exact lhs_blk_0 _ _
    | ⟨1, _⟩ => exact (lhs_blk_1 _ _).trans hk)
  have er : dot_S10000x128_S128x64_S10000x64_1_0_0_1_n_n.rhsIdx j ((ValueIdx.contrEquiv1 dot_S10000x128_S128x64_S10000x64_1_0_0_1_n_n 128 rfl rfl).symm k) = blkR j k := funext fun a => Fin.ext (by
    match a with
    | ⟨0, _⟩ => exact (rhs_blk_0 _ _).trans hk
    | ⟨1, _⟩ => exact rhs_blk_1 _ _)
  show x0 (dot_S10000x128_S128x64_S10000x64_1_0_0_1_n_n.lhsIdx j _) * x1 (dot_S10000x128_S128x64_S10000x64_1_0_0_1_n_n.rhsIdx j _) = _
  rw [el, er]

/-! ## The blocks the body reads -/

/-- The feature array and the weight as the region finds them, at their literal types. -/
abbrev feat (c : Dev nD) : Vec Ideal S100000x128 .f32 := V c main_arg2
abbrev wgt (c : Dev nD) : Vec Ideal S128x64 .f32 := V c main_arg3

theorem hz : (![0, 0] : Fin 2 → Nat) = fun _ => 0 := funext fun a => by fin_cases a <;> rfl

/-- The printed index maps over the grid: the feature window and the result window sit at block (t, 0), the weight
    window always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block `t` of the feature array is its rows 10000·t … 10000·t+9999. -/
theorem fblk_apply (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = feat V c k := by
  obtain ⟨e0, e1, -, -, -, -⟩ := idx_facts t
  unfold iblk0
  rw [View.read_apply]
  show V c main_arg2 _ = V c main_arg2 _
  congr 1
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 128 + 1 * (x 1).val = (k 1).val; rw [e1, hk1]; omega

/-- The weight's one block is the weight, at every point. -/
theorem wblk_apply (c : Dev nD) (t : Fin cfg0.N) (x k : S128x64.Idx)
    (hk0 : (k 0).val = (x 0).val) (hk1 : (k 1).val = (x 1).val) :
    (iblk0 V c 1 t : Vec Ideal S128x64 .f32) x = wgt V c k := by
  obtain ⟨-, -, e0, e1, -, -⟩ := idx_facts t
  unfold iblk0
  rw [View.read_apply]
  show V c main_arg3 _ = V c main_arg3 _
  congr 1
  funext a
  apply Fin.ext
  match a with
  | ⟨0, _⟩ => show win0_1.index t (0 : Fin 2) * 128 + 1 * (x 0).val = (k 0).val; rw [e0, hk0]; omega
  | ⟨1, _⟩ => show win0_1.index t (1 : Fin 2) * 64 + 1 * (x 1).val = (k 1).val; rw [e1, hk1]; omega

/-- Entry `j` of point `t`'s product is entry (10000·t + j 0, j 1) of the whole-array projection. -/
theorem pay_blk (c : Dev nD) (t : Fin cfg0.N) (j : S10000x64.Idx) (i : S100000x64.Idx)
    (hi0 : (i 0).val = 10000 * t.val + (j 0).val) (hi1 : (i 1).val = (j 1).val) :
    k0_pay1 (F := Ideal) (iblk0 V c 0 t) (iblk0 V c 1 t) j = projOf (V c main_arg2) (V c main_arg3) i := by
  refine (pay_apply (iblk0 V c 0 t) (iblk0 V c 1 t) j).trans ?_
  show _ = ∑ k : Fin 128, feat V c (lrow i k) * wgt V c (rcol i k)
  refine Finset.sum_congr rfl fun k _ => ?_
  rw [fblk_apply V c t (blkL j k) (lrow i k) hi0 rfl, wblk_apply V c t (blkR j k) (rcol i k) rfl hi1]

/-! ## What a point writes back, and the cover -/

/-- What point `t` writes back is block `t` of the projection. -/
theorem flushed_eq (c : Dev nD) (t : Fin cfg0.N) :
    (dat0 V c).flushed 2 t = ((cfg0.win 2).blk t).view.read (Elt Ideal) (projOf (V c main_arg2) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e0, e1⟩ := idx_facts t
  funext j
  show k0_pay1 (iblk0 V c 0 t) (iblk0 V c 1 t) j = projOf (V c main_arg2) (V c main_arg3) (((cfg0.win 2).blk t).view.emb j)
  refine pay_blk V c t j _ ?_ ?_
  · show win0_2.index t (0 : Fin 2) * 10000 + 1 * (j 0).val = _; rw [e0]; omega
  · show win0_2.index t (1 : Fin 2) * 64 + 1 * (j 1).val = _; rw [e1]; omega

/-- An entry lies in point `t`'s block iff its row is among the block's 10000 rows. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row `r` of the result is written back by point `r / 10000`: the ten blocks cover the array. -/
theorem cover (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 10 := N_0
  have hlt : (i 0).val / 10000 < cfg0.N := by rw [hN]; omega
  refine ⟨⟨(i 0).val / 10000, hlt⟩, flush0_2 _, ?_⟩
  rw [mem_blk]
  obtain ⟨-, -, -, -, e0, e1⟩ := idx_facts ⟨(i 0).val / 10000, hlt⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e1]; omega

end Proj0

/-- The array region 0 leaves: the projection of the features by the weight, entry by entry. -/
theorem final0 (c : Dev nD) : (dat0 (F := Ideal) V c).arrAt 2 cfg0.N = projOf (V c main_arg2) (V c main_arg3) :=
  (dat0 V c).arrAt_eq_of_cover 2 _ (fun t _ => Proj0.flushed_eq V c t) Proj0.cover

end Cert.KernelIdeal.Hand

end
-- ==== Proof.KernelSide.lean ====
/-
  The kernel program's run with its result named: `layer idx vals bias (projOf features weight)`.

  The launch over the generated segments ends with the result array at the last boundary's contents; the chain of
  boundaries reads that as the layer over what the projection region left, and the projection region leaves `projOf` of
  the feature and weight arrays as launched.
-/
import proofs.«130126_j13357348290975_1_alg».proof.Proof.KRun
import proofs.«130126_j13357348290975_1_alg».proof.Proof.Chain
import proofs.«130126_j13357348290975_1_alg».proof.Proof.ProjRegion

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- What the projection region leaves in `main_v0`: the projection of the launch contents. -/
theorem W1_v0 (c : Dev nD) : W1 m ρ c (Proc.devRef .tc main_v0)
    = projOf (m ((c : Thread nD τ).loc main_arg2)) (m ((c : Thread nD τ).loc main_arg3)) :=
  (W1_arr m ρ c 2).trans (final0 (V0 m ρ) c)

/-- The kernel program's run, its result stated as the layer over the projection. -/
theorem run : θ_run defs (onTc (τ := τ) (main (F := Ideal))) ⟨m, fun _ => 0, ρ⟩ fun r => ∀ c : Dev nD,
      r.2.mem ((c.tc : Thread nD τ).loc main_v28)
        = layer (m ((c.tc : Thread nD τ).loc main_arg0)) (m ((c.tc : Thread nD τ).loc main_arg1))
            (m ((c.tc : Thread nD τ).loc main_arg4))
            (projOf (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((W7_v28 m ρ c).trans (by rw [W1_v0])), (h c).2⟩)
    (run_W7 (F := Ideal) m ρ)

end Cert.KernelIdeal.Hand

end
-- ==== Proof.RefSide.lean ====
/-
  The reference's result is the same term as the kernel program's.

  The reference computes `features · weight` by one `dot_general`, which over the extended reals is the plain sum
  `∑ k, A (r, k) * Wt (k, n)` (`projOf`); from there on it applies, operation for operation, the stages the kernel program
  applies around its regions — the same index columns, the same gather, `values * gathered` with the value column
  broadcast along the lanes, the same scatter-add into zeros, twice, and the bias row broadcast down the rows.  So its
  result is `layer idx vals bias (projOf A Wt)`.
-/
import proofs.«130126_j13357348290975_1_alg».proof.Proof.Gen.ReferenceIdeal.Run
import proofs.«130126_j13357348290975_1_alg».proof.Proof.Gen.ReferenceIdeal.Read
import proofs.«130126_j13357348290975_1_alg».proof.Proof.Chain

noncomputable section

open Idealize.ShloMosaic Idealize.ShloMosaic.TcCoe Idealize.SL.Sem

namespace Cert.ReferenceIdeal.RefValue

open Cert.ReferenceIdeal Cert.ReferenceIdeal.Gen

/-- The host's `dot_general` over the extended reals is the projection's sum, entry by entry. -/
theorem dot_eq (A : FVec Ideal S100000x128 .f32) (Wt : FVec Ideal S128x64 .f32) :
    (Host.dotGeneral (F := Ideal) (φ₁ := .f32) (φ₂ := .f32) dot_S100000x128_S128x64_S100000x64_1_0_0_1_n_n none A Wt : Vec Ideal S100000x64 .f32)
      = Cert.KernelIdeal.Hand.projOf A Wt :=
  funext fun i => Cert.ReferenceIdeal.Read.val_main_v0_apply A Wt i

/-- The reference's run, its result stated as the layer over the projection. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
        = Cert.KernelIdeal.Hand.layer (m ((c.tc : Thread nD τ).loc main_arg0)) (m ((c.tc : Thread nD τ).loc main_arg1))
            (m ((c.tc : Thread nD τ).loc main_arg4))
            (Cert.KernelIdeal.Hand.projOf (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Cert.ReferenceIdeal.Value.run (F := Ideal) m ρ)
  rw [dot_eq]
  rfl

end Cert.ReferenceIdeal.RefValue

end
-- ==== Proof.lean ====
/-
  The certificate of the graph layer `out = A²-propagate(features · weight) + bias`:
  `base = features · weight`; twice `base ← segment_sum(values[:, None] * base[col], row)`; `out = base + bias`.

  The kernel program runs the projection, the two per-edge scalings and the bias add as tiled kernels and keeps the
  gathers and scatter-adds on the host; the reference runs everything on the host.  Over the extended reals the two
  compute one function of the arguments: the tiled projection is the `dot_general`'s sum `∑ k, A (r, k) * Wt (k, n)`
  block by block (narrowing the operands to bf16 is the identity there, and the sum needs no reordering), the scaling
  kernel's `gathered * values` is the reference's `values * gathered` because multiplication commutes, the bias kernel
  adds the same broadcast row, and the index arithmetic, the gathers and the scatter-adds are the same operations on
  both sides.  Neither law needs finiteness, so the precondition is not opened.

  The frames of the two kernel programs are the generated ones; the reference's frame is its generated run with the
  result dropped; the ideal pass rewrote nothing, so `preserves` is `True`.
-/
import proofs.«130126_j13357348290975_1_alg».proof.Defs
import proofs.«130126_j13357348290975_1_alg».proof.Proof.Gen.Kernel
import proofs.«130126_j13357348290975_1_alg».proof.Proof.Gen.Kernel.Skeleton
import proofs.«130126_j13357348290975_1_alg».proof.Proof.Gen.Kernel.Launch
import proofs.«130126_j13357348290975_1_alg».proof.Proof.Gen.Kernel.Points
import proofs.«130126_j13357348290975_1_alg».proof.Proof.Gen.Kernel.Frame
import proofs.«130126_j13357348290975_1_alg».proof.Proof.Gen.KernelIdeal
import proofs.«130126_j13357348290975_1_alg».proof.Proof.Gen.KernelIdeal.Skeleton
import proofs.«130126_j13357348290975_1_alg».proof.Proof.Gen.KernelIdeal.Launch
import proofs.«130126_j13357348290975_1_alg».proof.Proof.Gen.KernelIdeal.Points
import proofs.«130126_j13357348290975_1_alg».proof.Proof.Gen.KernelIdeal.Frame
import proofs.«130126_j13357348290975_1_alg».proof.Proof.Gen.ReferenceIdeal
import proofs.«130126_j13357348290975_1_alg».proof.Proof.Gen.ReferenceIdeal.Run
import proofs.«130126_j13357348290975_1_alg».proof.Proof.Gen.Pre_finite_inputs
import proofs.«130126_j13357348290975_1_alg».proof.Proof.KernelSide
import proofs.«130126_j13357348290975_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the layer over the projection of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
